-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x4096x1 : Shape := ⟨3, ![4, 4096, 1]⟩
abbrev S4x1x4096 : Shape := ⟨3, ![4, 1, 4096]⟩
abbrev S1x4096x3 : Shape := ⟨3, ![1, 4096, 3]⟩
abbrev S1x512x3 : Shape := ⟨3, ![1, 512, 3]⟩
abbrev S1x512x1 : Shape := ⟨3, ![1, 512, 1]⟩
abbrev S1x1x4096 : Shape := ⟨3, ![1, 1, 4096]⟩
abbrev S4096x3 : Shape := ⟨2, ![4096, 3]⟩
abbrev S512x3 : Shape := ⟨2, ![512, 3]⟩
abbrev S512x4096 : Shape := ⟨2, ![512, 4096]⟩
abbrev S512 : Shape := ⟨1, ![512]⟩
abbrev S512x1 : Shape := ⟨2, ![512, 1]⟩
abbrev S4096 : Shape := ⟨1, ![4096]⟩
abbrev S1x4096 : Shape := ⟨2, ![1, 4096]⟩
abbrev S4x4096 : Shape := ⟨2, ![4, 4096]⟩
abbrev S_ : Shape := ⟨0, ![]⟩

abbrev nBuf : Space → Nat
  | .hbm => 15
  | .vmem => 8
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x1, .f32⟩
  | .hbm, ⟨3, _⟩ => ⟨S4x1x4096, .f32⟩
  | .hbm, ⟨4, _⟩ => ⟨S4x4096, .f32⟩
  | .hbm, ⟨5, _⟩ => ⟨S4x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x4096x3, .f32⟩
  | .local _ .vmem, ⟨1, _⟩ => ⟨S1x4096x3, .f32⟩
  | .local _ .vmem, ⟨2, _⟩ => ⟨S1x512x3, .f32⟩
  | .local _ .vmem, ⟨3, _⟩ => ⟨S1x512x3, .f32⟩
  | .local _ .vmem, ⟨4, _⟩ => ⟨S1x512x1, .f32⟩
  | .local _ .vmem, ⟨5, _⟩ => ⟨S1x512x1, .f32⟩
  | .local _ .vmem, ⟨6, _⟩ => ⟨S1x1x4096, .f32⟩
  | .local _ .vmem, ⟨7, _⟩ => ⟨S1x1x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v29 : BitVec 1 := Scalar.cmpi .eq arg1 c0_i32
  let v30 : BitVec 32 := Scalar.extui v29
  let c0_i32_14 : BitVec 32 := 0#32
  let v31 : BitVec 1 := Scalar.cmpi .ne v30 c0_i32_14
  v31

def k0_cond2 (i : grid0.Coords) : BitVec 1 :=
  let arg1 : BitVec 32 := BitVec.ofNat 32 (i 1).val
  let c0_i32_15 : BitVec 32 := 0#32
  let v32 : BitVec 1 := Scalar.cmpi .ne arg1 c0_i32_15
  let v33 : BitVec 32 := Scalar.extui v32
  let c0_i32_16 : BitVec 32 := 0#32
  let v34 : BitVec 1 := Scalar.cmpi .ne v33 c0_i32_16
  v34

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  bitsLt_bf16_f32 : FTy.bits .bf16 < FTy.bits .f32
  reduces_S512x3_S512 : S512x3.Reduces [1] S512
  shapeCasts_S512_S512x1 : S512.ShapeCasts S512x1
  reduces_S4096x3_S4096 : S4096x3.Reduces [1] S4096
  shapeCasts_S4096_S1x4096 : S4096.ShapeCasts S1x4096
  broadcasts_S512x1_S512x4096 : S512x1.Broadcasts S512x4096
  broadcasts_S1x4096_S512x4096 : S1x4096.Broadcasts S512x4096
  reduces_S512x4096_S512 : S512x4096.Reduces [1] S512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  reduces_S512x4096_S4096 : S512x4096.Reduces [0] S4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S4x4096x1_S4x4096 : S4x4096x1.ShapeCasts S4x4096
  shapeCasts_S4x1x4096_S4x4096 : S4x1x4096.ShapeCasts S4x4096
  reducesTo_S4x4096_S_d0_1 : S4x4096.ReducesTo [0, 1] S_
  h_S_ : 0 < S_.numel
  dot_S512x3_S4096x3_S512x4096_1_1_0_0_n_n_wf : DotDims.WF S512x3 S4096x3 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S4x4096x3.size a
  hwx0_0 : ∀ i : grid0.Coords, EltTy.bits .f32 = 32 ∨ (Rect.block (s := S4x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3.size a ≤ S4x4096x3.size a
  hwx0_1 : ∀ i : grid0.Coords, EltTy.bits .f32 = 32 ∨ (Rect.block (s := S4x4096x3) S1x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S4x4096x1.size a
  hwx0_2 : ∀ i : grid0.Coords, EltTy.bits .f32 = 32 ∨ (Rect.block (s := S4x4096x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S4x1x4096.size a
  hwx0_3 : ∀ i : grid0.Coords, EltTy.bits .f32 = 32 ∨ (Rect.block (s := S4x1x4096) S1x1x4096.size (cc0_transform_3 i) (hinb0_3 i)).WholeWords (EltTy.packing .f32)

variable [Facts₀]

def dot_S512x3_S4096x3_S512x4096_1_1_0_0_n_n : DotDims S512x3 S4096x3 S512x4096 where
  lhsContracting := [1]
  rhsContracting := [1]
  lhsNonContracting := [0]
  rhsNonContracting := [0]
  lhsBatch := []
  rhsBatch := []
  wf := dot_S512x3_S4096x3_S512x4096_1_1_0_0_n_n_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S4x4096x1x3 : Shape := ⟨4, ![4, 4096, 1, 3]⟩
abbrev S4x1x4096x3 : Shape := ⟨4, ![4, 1, 4096, 3]⟩
abbrev S4x4096x4096x3 : Shape := ⟨4, ![4, 4096, 4096, 3]⟩
abbrev S_ : Shape := ⟨0, ![]⟩
abbrev S4x4096x4096 : Shape := ⟨3, ![4, 4096, 4096]⟩
abbrev S4x4096 : Shape := ⟨2, ![4, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x1x3, .f32⟩
  | .hbm, ⟨3, _⟩ => ⟨S4x1x4096x3, .f32⟩
  | .hbm, ⟨4, _⟩ => ⟨S4x4096x4096x3, .f32⟩
  | .hbm, ⟨5, _⟩ => ⟨S4x4096x4096x3, .f32⟩
  | .hbm, ⟨6, _⟩ => ⟨S4x4096x4096x3, .f32⟩
  | .hbm, ⟨7, _⟩ => ⟨S4x4096x4096x3, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S4x4096x3_S4x4096x1x3_0_1_3 : S4x4096x3.BroadcastsInDim S4x4096x1x3 (![0, 1, 3] : Fin 3 → Fin S4x4096x1x3.rank)
  bcast_S4x4096x3_S4x1x4096x3_0_2_3 : S4x4096x3.BroadcastsInDim S4x1x4096x3 (![0, 2, 3] : Fin 3 → Fin S4x1x4096x3.rank)
  bcast_S4x4096x1x3_S4x4096x4096x3_0_1_2_3 : S4x4096x1x3.BroadcastsInDim S4x4096x4096x3 (![0, 1, 2, 3] : Fin 4 → Fin S4x4096x4096x3.rank)
  bcast_S4x1x4096x3_S4x4096x4096x3_0_1_2_3 : S4x1x4096x3.BroadcastsInDim S4x4096x4096x3 (![0, 1, 2, 3] : Fin 4 → Fin S4x4096x4096x3.rank)
  reducesTo_S4x4096x4096x3_S4x4096x4096_d3 : S4x4096x4096x3.ReducesTo [3] S4x4096x4096
  h_S_ : 0 < S_.numel
  reducesTo_S4x4096x4096_S4x4096_d2 : S4x4096x4096.ReducesTo [2] S4x4096
  reducesTo_S4x4096x4096_S4x4096_d1 : S4x4096x4096.ReducesTo [1] S4x4096
  reducesTo_S4x4096_S_d0_1 : S4x4096.ReducesTo [0, 1] S_

variable [Facts₀]

class Facts : Prop extends Facts₀ where

variable [Facts]
-- ==== Proof.KBody.lean ====
/-
  The frame of the kernel program, for every float instance (one text serves the program as printed, read at the
  word level, and its idealization, read at the extended reals): the pipeline's proof data, the kernel body's two
  control cases, and the run of the whole program.

  The grid has 4 × 8 points; point `t` is batch `t / 8`, target tile `t % 8`. At every point the body reads the
  batch's 4096 predicted points (window 0) and the tile's 512 target points (window 1), and stores into window 2
  the tile's row minima of the 512 × 4096 distance slab. Window 3 holds the column minima and is carried across the
  eight tiles of a batch: the first tile (`t % 8 = 0`) stores the slab's column minima, every later tile stores the
  elementwise minimum of what the buffer held and its own column minima; the buffer is written back after the
  eighth tile. So one of the two stores into window 3 happens at every point, and the window is never idle.

  * `hcond1`, `hcond2`: the two branch conditions in closed form over the grid; `live3`: at no grid coordinates do
    both fail.
  * `sound_kernel_A`, `sound_kernel_B`: the body on whole staging buffers in the first-tile case and in the
    later-tile case; what each output buffer ends with is the body's payload of the input blocks (and, in the
    later-tile case, of what window 3's buffer held).
  * `outsAt`: what window 3's buffer holds after each point, by recursion on the point.
  * `dats`, `sound_body`, `body_obligation`, `run_main`, `frame`: the proof data, the body at a generic point,
    the run and the frame claim.
-/
import proofs.«136748_j43748536877744_1_alg».proof.Proof.Gen.Kernel.Frame
import proofs.«136748_j43748536877744_1_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

/-! ## The branch conditions over the grid -/

/-- The first branch (store the column minima) is taken exactly at a batch's first tile. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)

/-- The second branch (fold the column minima into the running ones) is taken exactly at the later tiles. -/
theorem hcond2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- One of the two branches is taken at any coordinates: the tile coordinate is zero or it is not. -/
theorem live3 (i : grid0.Coords) : cfg0.idle 3 i = false := by
  show (!(k0_cond1 i == 1#1) && !(k0_cond2 i == 1#1)) = false
  unfold k0_cond1 k0_cond2
  dsimp only
  generalize (i 1) = v
  revert v
  decide

/-! ## One store through the whole-buffer rectangle -/

/-- The whole-buffer rectangle's offsets are zero. -/
theorem off3 : (![0, 0, 0] : Fin 3 → ℕ) = fun _ => 0 := funext fun a => by fin_cases a <;> rfl

/-- The whole-buffer rectangles of the two output windows. -/
abbrev rA : Rect S1x512x1 := Rect.unit (s := S1x512x1) ![0, 0, 0] S1x512x1.size inb_S1x512x1_S1x512x1_0_0_0
abbrev rB : Rect S1x1x4096 := Rect.unit (s := S1x1x4096) ![0, 0, 0] S1x1x4096.size inb_S1x1x4096_S1x1x4096_0_0_0

/-- One store through the whole-buffer rectangle covers every index. -/
theorem cover_rA (w : Vec F S1x512x1 .f32) (y : S1x512x1.Idx) :
    ∃ pc ∈ ([⟨rA, w⟩] : List (View.Piece (Elt F) S1x512x1 .f32)), y ∈ pc.1.set :=
  View.cover_of_tiled [⟨rA, w⟩] S1x512x1.size (by rfl) y
theorem cover_rB (w : Vec F S1x1x4096 .f32) (y : S1x1x4096.Idx) :
    ∃ pc ∈ ([⟨rB, w⟩] : List (View.Piece (Elt F) S1x1x4096 .f32)), y ∈ pc.1.set :=
  View.cover_of_tiled [⟨rB, w⟩] S1x1x4096.size (by rfl) y

/-! ## The body's two control cases -/

/-- FIRST TILE. On whole staging buffers, the inputs' at contents `x0`, `x1`, the outputs' at anything, the body
    runs to the continuation holding the inputs' as they were, window 2's buffer at the row minima `k0_pay2 x0 x1`
    and window 3's at the column minima `k0_pay4 x0 x1`. -/
theorem sound_kernel_A (c : Dev nD) (i : grid0.Coords)
    (arg2 : Memref sig .tc .vmem S1x4096x3 .f32) (harg2 : arg2.IsWhole) (arg3 : Memref sig .tc .vmem S1x512x3 .f32) (harg3 : arg3.IsWhole)
    (arg4 : Memref sig .tc .vmem S1x512x1 .f32) (harg4 : arg4.IsWhole) (arg5 : Memref sig .tc .vmem S1x1x4096 .f32) (harg5 : arg5.IsWhole)
    (h1 : k0_cond1 i = 1#1) (h2 : ¬ k0_cond2 i = 1#1)
    (x0 : Vec F S1x4096x3 .f32) (x1 : Vec F S1x512x3 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay4 x0 x1)) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  simp only [k0_part1_eq_skeleton]
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (cover_rA _), View.canon_unit_zero off3]
    simp only [View.readAt_eq_ld, harg2.read_unread, harg3.read_unread, View.ld_unit_zero (S := S1x4096x3) off3,
      View.ld_unit_zero (S := S1x512x3) off3]
  iexists _; isplitr
  swap; · iexact H3
  ipureintro
  rw [View.read_writes_eq_canon _ _ _ (cover_rB _), View.canon_unit_zero off3]
  simp only [View.readAt_eq_ld, harg2.read_unread, harg3.read_unread, View.ld_unit_zero (S := S1x4096x3) off3,
    View.ld_unit_zero (S := S1x512x3) off3]

/-- LATER TILE. The same with window 3's buffer at running contents `xo`: it ends at `k0_pay5 x0 x1 xo`, the
    elementwise minimum of `xo` and the slab's column minima. -/
theorem sound_kernel_B (c : Dev nD) (i : grid0.Coords)
    (arg2 : Memref sig .tc .vmem S1x4096x3 .f32) (harg2 : arg2.IsWhole) (arg3 : Memref sig .tc .vmem S1x512x3 .f32) (harg3 : arg3.IsWhole)
    (arg4 : Memref sig .tc .vmem S1x512x1 .f32) (harg4 : arg4.IsWhole) (arg5 : Memref sig .tc .vmem S1x1x4096 .f32) (harg5 : arg5.IsWhole)
    (h1 : ¬ k0_cond1 i = 1#1) (h2 : k0_cond2 i = 1#1)
    (x0 : Vec F S1x4096x3 .f32) (x1 : Vec F S1x512x3 .f32) (xo : Vec F S1x1x4096 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xo
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay5 x0 x1 xo)) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  simp only [k0_part1_eq_skeleton]
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (cover_rA _), View.canon_unit_zero off3]
    simp only [View.readAt_eq_ld, harg2.read_unread, harg3.read_unread, View.ld_unit_zero (S := S1x4096x3) off3,
      View.ld_unit_zero (S := S1x512x3) off3]
  iexists _; isplitr
  swap; · iexact H3
  ipureintro
  rw [View.read_writes_eq_canon _ _ _ (cover_rB _), View.canon_unit_zero off3]
  simp only [View.readAt_eq_ld, harg2.read_unread, harg3.read_unread, harg5.read_unread, View.ld_unit_zero (S := S1x4096x3) off3,
    View.ld_unit_zero (S := S1x512x3) off3, View.ld_unit_zero (S := S1x1x4096) off3]

variable (m : (ℓ : Loc nD τ sig) → Buf (Elt F) ℓ) (ρ : Dev nD → PrngReg)

/-! ## What window 3's buffer holds after each point -/

/-- THE RUNNING COLUMN MINIMA. After the body at position `n`: at a batch's first tile the slab's column minima,
    at a later tile their elementwise minimum with what the point before left. -/
def outsAt (c : Dev nD) : (n : ℕ) → n < cfg0.N → Vec F S1x1x4096 .f32
  | 0, hn => k0_pay4 (iblk m c 0 ⟨0, hn⟩) (iblk m c 1 ⟨0, hn⟩)
  | n + 1, hn =>
    if h0 : (n + 1) % 8 = 0 then
      k0_pay4 (iblk m c 0 ⟨n + 1, hn⟩) (iblk m c 1 ⟨n + 1, hn⟩)
    else
      k0_pay5 (iblk m c 0 ⟨n + 1, hn⟩) (iblk m c 1 ⟨n + 1, hn⟩) (outsAt c n (Nat.lt_of_succ_lt hn))

/-- At a first tile. -/
theorem outsAt_A (c : Dev nD) (t : Fin cfg0.N) (h0 : t.val % 8 = 0) :
    outsAt m c t.val t.isLt = k0_pay4 (iblk m c 0 t) (iblk m c 1 t) := by
  obtain ⟨n, hn⟩ := t
  cases n with
  | zero => exact rfl
  | succ n => exact (dif_pos h0).trans rfl

/-- At a later tile, over what the point before left. -/
theorem outsAt_B (c : Dev nD) (t : Fin cfg0.N) (h0 : ¬t.val % 8 = 0) :
    outsAt m c t.val t.isLt = k0_pay5 (iblk m c 0 t) (iblk m c 1 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point
    `t` each input's buffer at its block, window 2's at the row minima of the point's blocks, window 3's at the
    running column minima; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 0 t) (iblk m c 1 t)
    | ⟨3, _⟩ => outsAt m c t.val t.isLt
  Φ _ := ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay2 (iblk m c 0 t) (iblk m c 1 t) := by dsimp only [dats]
theorem after0_3 (c : Dev nD) (t : Fin cfg0.N) : (dats m 0 c).after 3 t = outsAt m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a later tile window 3's current staging buffer holds what the body left at the point before: the point is
    not the first, the buffer is written back only after a batch's last tile, and the window is never idle. -/
theorem before0_3_B (c : Dev nD) (t : Fin cfg0.N) (h0 : ¬t.val % 8 = 0) (d) :
    (dats m 0 c).before 3 t d = outsAt m c (t.val - 1) (Nat.lt_of_le_of_lt (Nat.sub_le _ _) t.isLt) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    live3 (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 800000 in
/-- The body at any point: the inputs' buffers hold their blocks; the closed forms say which case the point is in;
    at a later tile window 3's buffer holds what the point before left; so the case's run applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 8 = 0
  · rw [outsAt_A m c t h0]
    iintro ⟨HΦ, Ho, ⟨%d0, H0⟩, ⟨%d1, H1⟩, ⟨%d2, H2⟩, ⟨%d3, H3⟩⟩
    iapply (sound_kernel_A c (grid0.coords t) _ _ _ _ _ _ _ _ ((hcond1 t).mpr h0) (fun h => ((hcond2 t).mp h) h0)
      (iblk m c 0 t) (iblk m c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt_B m c t h0]
    simp only [before0_3_B m c t h0]
    iintro ⟨HΦ, Ho, ⟨%d0, H0⟩, ⟨%d1, H1⟩, ⟨%d2, H2⟩, ⟨%d3, H3⟩⟩
    iapply (sound_kernel_B c (grid0.coords t) _ _ _ _ _ _ _ _ (fun h => h0 ((hcond1 t).mp h)) ((hcond2 t).mpr h0)
      (iblk m c 0 t) (iblk m c 1 t) _ Set.univ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point: window 3 is live everywhere (`live3`), so every window is handed
    back at what the body left. -/
theorem body_obligation (c : Dev nD) : BodyObligation (dats (F := F) m 0 c) (defs₀ (F := F)) Variants.none () Set.univ := fun t => by
  rw [bigSep_W0, bigSep_W0]
  have h3 : cfg0.idle 3 (cfg0.grid.coords t) = false := live3 _
  rw [h3]
  show bodyPre m c t ⊢ wp frame (wpE (defs₀ (F := F)) Variants.none c none) Set.univ (bodyAt0 t) (fun _ => bodyPost m c t)
  exact sound_body m c t

/-! ## The run and the frame -/

set_option backward.isDefEq.respectTransparency.types false in
/-- At the compiled mesh, from any memory with zero counters: every weakly fair execution of the program terminates,
    and every final state has every array of the pipeline at what the proof data computes and every other unscoped
    buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs to the end, faults nowhere, and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KIBody.lean ====
/-
  The frame of the kernel program, for every float instance (one text serves the program as printed, read at the
  word level, and its idealization, read at the extended reals): the pipeline's proof data, the kernel body's two
  control cases, and the run of the whole program.

  The grid has 4 × 8 points; point `t` is batch `t / 8`, target tile `t % 8`. At every point the body reads the
  batch's 4096 predicted points (window 0) and the tile's 512 target points (window 1), and stores into window 2
  the tile's row minima of the 512 × 4096 distance slab. Window 3 holds the column minima and is carried across the
  eight tiles of a batch: the first tile (`t % 8 = 0`) stores the slab's column minima, every later tile stores the
  elementwise minimum of what the buffer held and its own column minima; the buffer is written back after the
  eighth tile. So one of the two stores into window 3 happens at every point, and the window is never idle.

  * `hcond1`, `hcond2`: the two branch conditions in closed form over the grid; `live3`: at no grid coordinates do
    both fail.
  * `sound_kernel_A`, `sound_kernel_B`: the body on whole staging buffers in the first-tile case and in the
    later-tile case; what each output buffer ends with is the body's payload of the input blocks (and, in the
    later-tile case, of what window 3's buffer held).
  * `outsAt`: what window 3's buffer holds after each point, by recursion on the point.
  * `dats`, `sound_body`, `body_obligation`, `run_main`, `frame`: the proof data, the body at a generic point,
    the run and the frame claim.
-/
import proofs.«136748_j43748536877744_1_alg».proof.Proof.Gen.KernelIdeal.Frame
import proofs.«136748_j43748536877744_1_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

/-! ## The branch conditions over the grid -/

/-- The first branch (store the column minima) is taken exactly at a batch's first tile. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)

/-- The second branch (fold the column minima into the running ones) is taken exactly at the later tiles. -/
theorem hcond2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- One of the two branches is taken at any coordinates: the tile coordinate is zero or it is not. -/
theorem live3 (i : grid0.Coords) : cfg0.idle 3 i = false := by
  show (!(k0_cond1 i == 1#1) && !(k0_cond2 i == 1#1)) = false
  unfold k0_cond1 k0_cond2
  dsimp only
  generalize (i 1) = v
  revert v
  decide

/-! ## One store through the whole-buffer rectangle -/

/-- The whole-buffer rectangle's offsets are zero. -/
theorem off3 : (![0, 0, 0] : Fin 3 → ℕ) = fun _ => 0 := funext fun a => by fin_cases a <;> rfl

/-- The whole-buffer rectangles of the two output windows. -/
abbrev rA : Rect S1x512x1 := Rect.unit (s := S1x512x1) ![0, 0, 0] S1x512x1.size inb_S1x512x1_S1x512x1_0_0_0
abbrev rB : Rect S1x1x4096 := Rect.unit (s := S1x1x4096) ![0, 0, 0] S1x1x4096.size inb_S1x1x4096_S1x1x4096_0_0_0

/-- One store through the whole-buffer rectangle covers every index. -/
theorem cover_rA (w : Vec F S1x512x1 .f32) (y : S1x512x1.Idx) :
    ∃ pc ∈ ([⟨rA, w⟩] : List (View.Piece (Elt F) S1x512x1 .f32)), y ∈ pc.1.set :=
  View.cover_of_tiled [⟨rA, w⟩] S1x512x1.size (by rfl) y
theorem cover_rB (w : Vec F S1x1x4096 .f32) (y : S1x1x4096.Idx) :
    ∃ pc ∈ ([⟨rB, w⟩] : List (View.Piece (Elt F) S1x1x4096 .f32)), y ∈ pc.1.set :=
  View.cover_of_tiled [⟨rB, w⟩] S1x1x4096.size (by rfl) y

/-! ## The body's two control cases -/

/-- FIRST TILE. On whole staging buffers, the inputs' at contents `x0`, `x1`, the outputs' at anything, the body
    runs to the continuation holding the inputs' as they were, window 2's buffer at the row minima `k0_pay2 x0 x1`
    and window 3's at the column minima `k0_pay4 x0 x1`. -/
theorem sound_kernel_A (c : Dev nD) (i : grid0.Coords)
    (arg2 : Memref sig .tc .vmem S1x4096x3 .f32) (harg2 : arg2.IsWhole) (arg3 : Memref sig .tc .vmem S1x512x3 .f32) (harg3 : arg3.IsWhole)
    (arg4 : Memref sig .tc .vmem S1x512x1 .f32) (harg4 : arg4.IsWhole) (arg5 : Memref sig .tc .vmem S1x1x4096 .f32) (harg5 : arg5.IsWhole)
    (h1 : k0_cond1 i = 1#1) (h2 : ¬ k0_cond2 i = 1#1)
    (x0 : Vec F S1x4096x3 .f32) (x1 : Vec F S1x512x3 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay4 x0 x1)) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  simp only [k0_part1_eq_skeleton]
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (cover_rA _), View.canon_unit_zero off3]
    simp only [View.readAt_eq_ld, harg2.read_unread, harg3.read_unread, View.ld_unit_zero (S := S1x4096x3) off3,
      View.ld_unit_zero (S := S1x512x3) off3]
  iexists _; isplitr
  swap; · iexact H3
  ipureintro
  rw [View.read_writes_eq_canon _ _ _ (cover_rB _), View.canon_unit_zero off3]
  simp only [View.readAt_eq_ld, harg2.read_unread, harg3.read_unread, View.ld_unit_zero (S := S1x4096x3) off3,
    View.ld_unit_zero (S := S1x512x3) off3]

/-- LATER TILE. The same with window 3's buffer at running contents `xo`: it ends at `k0_pay5 x0 x1 xo`, the
    elementwise minimum of `xo` and the slab's column minima. -/
theorem sound_kernel_B (c : Dev nD) (i : grid0.Coords)
    (arg2 : Memref sig .tc .vmem S1x4096x3 .f32) (harg2 : arg2.IsWhole) (arg3 : Memref sig .tc .vmem S1x512x3 .f32) (harg3 : arg3.IsWhole)
    (arg4 : Memref sig .tc .vmem S1x512x1 .f32) (harg4 : arg4.IsWhole) (arg5 : Memref sig .tc .vmem S1x1x4096 .f32) (harg5 : arg5.IsWhole)
    (h1 : ¬ k0_cond1 i = 1#1) (h2 : k0_cond2 i = 1#1)
    (x0 : Vec F S1x4096x3 .f32) (x1 : Vec F S1x512x3 .f32) (xo : Vec F S1x1x4096 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xo
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay5 x0 x1 xo)) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  simp only [k0_part1_eq_skeleton]
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (cover_rA _), View.canon_unit_zero off3]
    simp only [View.readAt_eq_ld, harg2.read_unread, harg3.read_unread, View.ld_unit_zero (S := S1x4096x3) off3,
      View.ld_unit_zero (S := S1x512x3) off3]
  iexists _; isplitr
  swap; · iexact H3
  ipureintro
  rw [View.read_writes_eq_canon _ _ _ (cover_rB _), View.canon_unit_zero off3]
  simp only [View.readAt_eq_ld, harg2.read_unread, harg3.read_unread, harg5.read_unread, View.ld_unit_zero (S := S1x4096x3) off3,
    View.ld_unit_zero (S := S1x512x3) off3, View.ld_unit_zero (S := S1x1x4096) off3]

variable (m : (ℓ : Loc nD τ sig) → Buf (Elt F) ℓ) (ρ : Dev nD → PrngReg)

/-! ## What window 3's buffer holds after each point -/

/-- THE RUNNING COLUMN MINIMA. After the body at position `n`: at a batch's first tile the slab's column minima,
    at a later tile their elementwise minimum with what the point before left. -/
def outsAt (c : Dev nD) : (n : ℕ) → n < cfg0.N → Vec F S1x1x4096 .f32
  | 0, hn => k0_pay4 (iblk m c 0 ⟨0, hn⟩) (iblk m c 1 ⟨0, hn⟩)
  | n + 1, hn =>
    if h0 : (n + 1) % 8 = 0 then
      k0_pay4 (iblk m c 0 ⟨n + 1, hn⟩) (iblk m c 1 ⟨n + 1, hn⟩)
    else
      k0_pay5 (iblk m c 0 ⟨n + 1, hn⟩) (iblk m c 1 ⟨n + 1, hn⟩) (outsAt c n (Nat.lt_of_succ_lt hn))

/-- At a first tile. -/
theorem outsAt_A (c : Dev nD) (t : Fin cfg0.N) (h0 : t.val % 8 = 0) :
    outsAt m c t.val t.isLt = k0_pay4 (iblk m c 0 t) (iblk m c 1 t) := by
  obtain ⟨n, hn⟩ := t
  cases n with
  | zero => exact rfl
  | succ n => exact (dif_pos h0).trans rfl

/-- At a later tile, over what the point before left. -/
theorem outsAt_B (c : Dev nD) (t : Fin cfg0.N) (h0 : ¬t.val % 8 = 0) :
    outsAt m c t.val t.isLt = k0_pay5 (iblk m c 0 t) (iblk m c 1 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point
    `t` each input's buffer at its block, window 2's at the row minima of the point's blocks, window 3's at the
    running column minima; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 0 t) (iblk m c 1 t)
    | ⟨3, _⟩ => outsAt m c t.val t.isLt
  Φ _ := ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay2 (iblk m c 0 t) (iblk m c 1 t) := by dsimp only [dats]
theorem after0_3 (c : Dev nD) (t : Fin cfg0.N) : (dats m 0 c).after 3 t = outsAt m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a later tile window 3's current staging buffer holds what the body left at the point before: the point is
    not the first, the buffer is written back only after a batch's last tile, and the window is never idle. -/
theorem before0_3_B (c : Dev nD) (t : Fin cfg0.N) (h0 : ¬t.val % 8 = 0) (d) :
    (dats m 0 c).before 3 t d = outsAt m c (t.val - 1) (Nat.lt_of_le_of_lt (Nat.sub_le _ _) t.isLt) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    live3 (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 800000 in
/-- The body at any point: the inputs' buffers hold their blocks; the closed forms say which case the point is in;
    at a later tile window 3's buffer holds what the point before left; so the case's run applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 8 = 0
  · rw [outsAt_A m c t h0]
    iintro ⟨HΦ, Ho, ⟨%d0, H0⟩, ⟨%d1, H1⟩, ⟨%d2, H2⟩, ⟨%d3, H3⟩⟩
    iapply (sound_kernel_A c (grid0.coords t) _ _ _ _ _ _ _ _ ((hcond1 t).mpr h0) (fun h => ((hcond2 t).mp h) h0)
      (iblk m c 0 t) (iblk m c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt_B m c t h0]
    simp only [before0_3_B m c t h0]
    iintro ⟨HΦ, Ho, ⟨%d0, H0⟩, ⟨%d1, H1⟩, ⟨%d2, H2⟩, ⟨%d3, H3⟩⟩
    iapply (sound_kernel_B c (grid0.coords t) _ _ _ _ _ _ _ _ (fun h => h0 ((hcond1 t).mp h)) ((hcond2 t).mpr h0)
      (iblk m c 0 t) (iblk m c 1 t) _ Set.univ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point: window 3 is live everywhere (`live3`), so every window is handed
    back at what the body left. -/
theorem body_obligation (c : Dev nD) : BodyObligation (dats (F := F) m 0 c) (defs₀ (F := F)) Variants.none () Set.univ := fun t => by
  rw [bigSep_W0, bigSep_W0]
  have h3 : cfg0.idle 3 (cfg0.grid.coords t) = false := live3 _
  rw [h3]
  show bodyPre m c t ⊢ wp frame (wpE (defs₀ (F := F)) Variants.none c none) Set.univ (bodyAt0 t) (fun _ => bodyPost m c t)
  exact sound_body m c t

/-! ## The run and the frame -/

set_option backward.isDefEq.respectTransparency.types false in
/-- At the compiled mesh, from any memory with zero counters: every weakly fair execution of the program terminates,
    and every final state has every array of the pipeline at what the proof data computes and every other unscoped
    buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs to the end, faults nowhere, and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  The mathematics both programs compute, stated once over plain rows of three extended reals.

  A point is a row of three coordinates. For a target point `t` and a predicted point `p`:
  * `dist t p` is the Euclidean distance as the reference takes it: the square root of the sum over the
    three coordinates of the squared difference (the sum started from zero);
  * `distK t p` is the same distance as the kernel takes it: the square root of
    `max (|t|² + |p|² − 2 · ⟨t, p⟩) 0`, the norms and the inner product each a sum over the coordinates.
  On rows of real numbers the two agree (the binomial expansion; the clamp at zero is then the identity).
  A nearest-neighbour distance is the minimum of a family of such distances, written as the fold of
  `min` from `⊤` over the family's index set — the form both programs' min-reductions read as.
-/
import Idealize.ShloMosaic.PureOps.Ideal
import Idealize.ShloMosaic.Lib.ValueIdx

noncomputable section

namespace Cert.Chamfer

open Idealize.ShloMosaic

/-- The binary word of the f32 constant `2.0`, read at the extended reals. -/
abbrev two : EReal := Ideal.ofBits .f32 0x40000000#32
/-- The binary word of the f32 constant `0.0`, read at the extended reals. -/
abbrev zero : EReal := Ideal.ofBits .f32 0x00000000#32

/-- The distance between two points, as the sum of squared coordinate differences under a square root. -/
def dist (t p : Fin 3 → EReal) : EReal :=
  Ideal.sqrt (zero + ∑ k : Fin 3, (t k - p k) * (t k - p k))

/-- The distance between two points through the expansion `|t|² + |p|² − 2⟨t, p⟩`, clamped at zero. -/
def distK (t p : Fin 3 → EReal) : EReal :=
  Ideal.sqrt (max ((∑ k : Fin 3, t k * t k) + (∑ k : Fin 3, p k * p k) - two * ∑ k : Fin 3, t k * p k) zero)

/-- The minimum of a finite family of extended reals, as the fold of `min` from `⊤`. -/
def minOver {n : Nat} (f : Fin n → EReal) : EReal := (Finset.univ : Finset (Fin n)).fold min ⊤ f

end Cert.Chamfer

end
-- ==== Proof.Payload.lean ====
/-
  The idealized kernel's payloads read at an index, at the extended reals.

  The body computes, for a tile of 512 target points `t_r` and a block of 4096 predicted points `p_c` (rows of three
  coordinates), the matrix `√(max (|t_r|² + |p_c|² − 2 · ⟨t_r, p_c⟩) 0)` — the squared norms as lane sums of the
  squared coordinates, kept as a column and as a row and broadcast over the matrix, the inner products as a matrix
  product with the contraction over the three coordinates —, then its minimum along each row and along each column, and
  the running minimum of the column minima with what an earlier tile left. Each of those is read here at one index:
  the matrix entry is `distK t_r p_c`, a row or column minimum is `minOver` of the entries along it.

  One small lemma per operation that is not pointwise: the two keepdims layout forms (a vector cast to a column, a
  column broadcast over a matrix), a lane sum of a three-column matrix, a minimum along the
  lanes and along the sublanes of a matrix (the fold of `min` from `⊤`, the accumulator's word being `+∞`), and
  the matrix product through the bijection between its one-axis contraction index and `Fin 3`.
-/
import proofs.«136748_j43748536877744_1_alg».proof.Proof.Spec
import proofs.«136748_j43748536877744_1_alg».proof.Proof.Gen.KernelIdeal.Skeleton
import Idealize.ShloMosaic.Lib.ValueLayout
import Idealize.ShloMosaic.PureOps.Ideal.Laws

noncomputable section

namespace Cert.KernelIdeal.PayloadValue

open Cert.KernelIdeal Cert.KernelIdeal.Gen Cert.Chamfer Idealize.ShloMosaic Idealize.ShloMosaic.ValueIdx
open scoped BigOperators

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Reductions along one axis of a matrix -/

/-- The word of `+∞` at f32 is the top of the extended reals. -/
theorem ofBits_inf_f32 : Ideal.ofBits .f32 0x7F800000#32 = ⊤ := by simp [Ideal.ofBits, Ideal.ieee]

/-- A sum along the lanes of an `[n, 3]` matrix, at row `r`: the sum of the row's three entries. -/
theorem sum_lane_apply {n : ℕ} (src : FVec Ideal ⟨2, ![n, 3]⟩ .f32) (h : (⟨2, ![n, 3]⟩ : Shape).Reduces [1] ⟨1, ![n]⟩)
    (hφ : FKind.Formats .f32) (hacc : (0x00000000#32 : BitVec 32) = 0x00000000#32) (r : Fin n) :
    multiReduction (F := Ideal) .add [1] ⟨1, ![n]⟩ src 0x00000000#32 h hφ hacc (ix1 r) = ∑ k : Fin 3, src (ix2 r k) := by
  refine (Ideal.multiReduction_add_single src 0x00000000#32 h hφ hacc (ix1 r)).trans ?_
  refine Finset.sum_congr rfl fun k _ => congrArg src ?_
  funext c
  match c with
  | ⟨0, _⟩ => rfl
  | ⟨1, _⟩ => rfl

/-- A minimum along the lanes of an `[m, n]` matrix, at row `r`: the minimum over the row. -/
theorem min_lane_apply {m n : ℕ} (src : FVec Ideal ⟨2, ![m, n]⟩ .f32) (h : (⟨2, ![m, n]⟩ : Shape).Reduces [1] ⟨1, ![m]⟩)
    (hφ : FKind.Formats .f32) (hacc : (0x7F800000#32 : BitVec 32) = 0x7F800000#32) (r : Fin m) :
    multiReduction (F := Ideal) .minimumf [1] ⟨1, ![m]⟩ src 0x7F800000#32 h hφ hacc (ix1 r)
      = minOver (fun c : Fin n => src (ix2 r c)) := by
  refine (multiReduction_minimumf_eq_fold src 0x7F800000#32 h hφ hacc (ix1 r)).trans ?_
  refine (h.fold_filter_drop_single _ _ src (ix1 r)).trans ?_
  have e1 : (src ∘ h.lift (ix1 r)) = fun c : Fin n => src (ix2 r c) :=
    funext fun c => congrArg src (funext fun a => by
      match a with
      | ⟨0, _⟩ => rfl
      | ⟨1, _⟩ => rfl)
  have e2 : FloatOps.ofBits (F := Ideal) .f32 0x7F800000#32 = (⊤ : EReal) := ofBits_inf_f32
  rw [e1, e2]
  rfl

/-- A minimum along the sublanes of an `[m, n]` matrix, at column `c`: the minimum over the column. -/
theorem min_sublane_apply {m n : ℕ} (src : FVec Ideal ⟨2, ![m, n]⟩ .f32) (h : (⟨2, ![m, n]⟩ : Shape).Reduces [0] ⟨1, ![n]⟩)
    (hφ : FKind.Formats .f32) (hacc : (0x7F800000#32 : BitVec 32) = 0x7F800000#32) (c : Fin n) :
    multiReduction (F := Ideal) .minimumf [0] ⟨1, ![n]⟩ src 0x7F800000#32 h hφ hacc (ix1 c)
      = minOver (fun r : Fin m => src (ix2 r c)) := by
  refine (multiReduction_minimumf_eq_fold src 0x7F800000#32 h hφ hacc (ix1 c)).trans ?_
  refine (h.fold_filter_drop_single _ _ src (ix1 c)).trans ?_
  have e1 : (src ∘ h.lift (ix1 c)) = fun r : Fin m => src (ix2 r c) :=
    funext fun r => congrArg src (funext fun a => by
      match a with
      | ⟨0, _⟩ => rfl
      | ⟨1, _⟩ => rfl)
  have e2 : FloatOps.ofBits (F := Ideal) .f32 0x7F800000#32 = (⊤ : EReal) := ofBits_inf_f32
  rw [e1, e2]
  rfl

/-! ## The matrix product: each operand's index at an output index and a contraction index -/

/-- The first operand's row coordinate is the output's row. -/
theorem lhs_dot_0 (i : S512x4096.Idx) (q : dot_S512x3_S4096x3_S512x4096_1_1_0_0_n_n.contr.Idx) :
    (dot_S512x3_S4096x3_S512x4096_1_1_0_0_n_n.lhsIdx i q 0).val = (i 0).val := by
  unfold DotDims.lhsIdx
  rw [dif_neg (show ¬(0 : Fin S512x3.rank) ∈ dot_S512x3_S4096x3_S512x4096_1_1_0_0_n_n.lhsBatch by decide),
    dif_pos (show (0 : Fin S512x3.rank) ∈ dot_S512x3_S4096x3_S512x4096_1_1_0_0_n_n.lhsNonContracting by decide)]
  rfl

/-- The first operand's column coordinate is the contraction index's one coordinate. -/
theorem lhs_dot_1 (i : S512x4096.Idx) (q : dot_S512x3_S4096x3_S512x4096_1_1_0_0_n_n.contr.Idx) :
    (dot_S512x3_S4096x3_S512x4096_1_1_0_0_n_n.lhsIdx i q 1).val = (q ⟨0, by decide⟩).val :=
  dot_S512x3_S4096x3_S512x4096_1_1_0_0_n_n.lhsIdx_val_of_single rfl i q

/-- The second operand's row coordinate is the output's column (the second operand enters transposed). -/
theorem rhs_dot_0 (i : S512x4096.Idx) (q : dot_S512x3_S4096x3_S512x4096_1_1_0_0_n_n.contr.Idx) :
    (dot_S512x3_S4096x3_S512x4096_1_1_0_0_n_n.rhsIdx i q 0).val = (i 1).val := by
  unfold DotDims.rhsIdx
  rw [dif_neg (show ¬(0 : Fin S4096x3.rank) ∈ dot_S512x3_S4096x3_S512x4096_1_1_0_0_n_n.rhsBatch by decide),
    dif_pos (show (0 : Fin S4096x3.rank) ∈ dot_S512x3_S4096x3_S512x4096_1_1_0_0_n_n.rhsNonContracting by decide)]
  rfl

/-- The second operand's column coordinate is the contraction index's one coordinate. -/
theorem rhs_dot_1 (i : S512x4096.Idx) (q : dot_S512x3_S4096x3_S512x4096_1_1_0_0_n_n.contr.Idx) :
    (dot_S512x3_S4096x3_S512x4096_1_1_0_0_n_n.rhsIdx i q 1).val = (q ⟨0, by decide⟩).val :=
  dot_S512x3_S4096x3_S512x4096_1_1_0_0_n_n.rhsIdx_val_of_single rfl i q

/-- The product of a `[512, 3]` by the transpose of a `[4096, 3]` matrix into the zero matrix, at `(r, c)`: the inner
    product of row `r` of the first with row `c` of the second. -/
theorem matmul_dot_apply (lhs : FVec Ideal S512x3 .bf16) (rhs : FVec Ideal S4096x3 .bf16) (r : Fin 512) (c : Fin 4096) :
    matmul dot_S512x3_S4096x3_S512x4096_1_1_0_0_n_n none lhs rhs (constant (F := Ideal) S512x4096 .f32 0x00000000#32) (ix2 r c)
      = ∑ k : Fin 3, lhs (ix2 r k) * rhs (ix2 c k) := by
  simp only [matmul]
  rw [Ideal.matmul_constant_zero_apply,
    ← Equiv.sum_comp (contrEquiv1 dot_S512x3_S4096x3_S512x4096_1_1_0_0_n_n 3 rfl rfl).symm]
  refine Finset.sum_congr rfl fun k _ => ?_
  have hk := contrEquiv1_symm_val dot_S512x3_S4096x3_S512x4096_1_1_0_0_n_n 3 rfl rfl k
  have el : dot_S512x3_S4096x3_S512x4096_1_1_0_0_n_n.lhsIdx (ix2 r c)
      ((contrEquiv1 dot_S512x3_S4096x3_S512x4096_1_1_0_0_n_n 3 rfl rfl).symm k) = ix2 r k :=
    funext fun a => Fin.ext (by
      match a with
      | ⟨0, _⟩ => exact lhs_dot_0 _ _
      | ⟨1, _⟩ => exact (lhs_dot_1 _ _).trans hk)
  have er : dot_S512x3_S4096x3_S512x4096_1_1_0_0_n_n.rhsIdx (ix2 r c)
      ((contrEquiv1 dot_S512x3_S4096x3_S512x4096_1_1_0_0_n_n 3 rfl rfl).symm k) = ix2 c k :=
    funext fun a => Fin.ext (by
      match a with
      | ⟨0, _⟩ => exact rhs_dot_0 _ _
      | ⟨1, _⟩ => exact (rhs_dot_1 _ _).trans hk)
  rw [el, er]

/-! ## The payloads at an index -/

/-- A square root at an index is the extended reals' square root of the element. -/
theorem sqrt_apply {s : Shape} {φ : FTy} (a : FVec Ideal s φ) (i : s.Idx) : sqrt a i = Ideal.sqrt (a i) := rfl

section Payload
variable (x0 : Vec Ideal S1x4096x3 .f32) (x1 : Vec Ideal S1x512x3 .f32)

/-- The distance matrix at `(r, c)`: the distance, through the expansion of the square, between target point `r` of
    the tile and predicted point `c` of the block. -/
theorem pay1_apply (r : Fin 512) (c : Fin 4096) :
    k0_pay1 (F := Ideal) x0 x1 (ix2 r c) = distK (fun k => x1 (ix3 0 r k)) (fun k => x0 (ix3 0 c k)) := by
  unfold k0_pay1 distK
  simp only [sqrt_apply, maximumf_apply, subf_apply, addf_apply, mulf_apply, broadcast_apply]
  rw [broadcastTo_a1_ab_apply, shapeCast_a_a1_apply, sum_lane_apply, broadcastTo_1b_ab_apply, shapeCast_a_1a_apply,
    sum_lane_apply, matmul_dot_apply]
  simp only [mulf_apply, truncf_apply, shapeCast_1ab_ab_apply]
  rfl

/-- The row minima at `r`: the least distance from target point `r` to a predicted point of the block. -/
theorem pay2_apply (r : Fin 512) :
    k0_pay2 (F := Ideal) x0 x1 (ix3 0 r 0) = minOver (fun c : Fin 4096 => k0_pay1 (F := Ideal) x0 x1 (ix2 r c)) := by
  unfold k0_pay2
  dsimp only
  rw [shapeCast_ab_1ab_apply, shapeCast_a_a1_apply, min_lane_apply]

/-- The column minima at `c`, as a row: the least distance from predicted point `c` to a target point of the tile. -/
theorem pay3_apply (c : Fin 4096) :
    k0_pay3 (F := Ideal) x0 x1 (ix2 0 c) = minOver (fun r : Fin 512 => k0_pay1 (F := Ideal) x0 x1 (ix2 r c)) := by
  unfold k0_pay3
  dsimp only
  rw [shapeCast_a_1a_apply, min_sublane_apply]

/-- The column minima as the first tile stores them. -/
theorem pay4_apply (c : Fin 4096) :
    k0_pay4 (F := Ideal) x0 x1 (ix3 0 0 c) = minOver (fun r : Fin 512 => k0_pay1 (F := Ideal) x0 x1 (ix2 r c)) := by
  unfold k0_pay4
  rw [shapeCast_ab_1ab_apply, pay3_apply]

/-- The running column minima as a later tile stores them: the minimum of what was there and this tile's. -/
theorem pay5_apply (xo : Vec Ideal S1x1x4096 .f32) (c : Fin 4096) :
    k0_pay5 (F := Ideal) x0 x1 xo (ix3 0 0 c)
      = min (xo (ix3 0 0 c)) (minOver (fun r : Fin 512 => k0_pay1 (F := Ideal) x0 x1 (ix2 r c))) := by
  unfold k0_pay5
  rw [shapeCast_ab_1ab_apply, minimumf_apply, shapeCast_1ab_ab_apply, pay3_apply]

end Payload

end Cert.KernelIdeal.PayloadValue

end
-- ==== Proof.MinTiles.lean ====
/-
  Order theory of the minimum of a finite family of extended reals.

  The minimum of a family is the fold of `min` from `⊤`; on a linear order this is the finite infimum.
  Its defining property is that a bound lies below the minimum exactly when it lies below every member.
  From that property a minimum over 4096 indices splits into eight consecutive blocks of 512 indices:
  a bound lies below the running minimum after block `i` exactly when it lies below every member whose
  index is smaller than `512 * (i + 1)`, and after the last block these are all the indices.
-/
import proofs.«136748_j43748536877744_1_alg».proof.Proof.Spec
import Mathlib.Data.Finset.Fold
import Mathlib.Data.Finset.Lattice.Fold
import Mathlib.Data.Fintype.Basic
import Mathlib.Order.Lattice

noncomputable section

namespace Cert.Chamfer

/-- On any finite index set the fold of `min` from `⊤` is the finite infimum. -/
theorem fold_min_eq_inf {ι : Type} (s : Finset ι) (f : ι → EReal) :
    s.fold min ⊤ f = s.inf f := by
  classical
  induction s using Finset.induction_on with
  | empty => simp
  | insert a s ha ih =>
    rw [Finset.fold_insert ha, Finset.inf_insert, ih]

/-- The fold form equals `Finset.inf`. -/
theorem minOver_eq_inf {n : Nat} (f : Fin n → EReal) : minOver f = Finset.univ.inf f := by
  unfold minOver
  exact fold_min_eq_inf _ _

/-- Two families that agree at every index have the same minimum. -/
theorem minOver_congr {n : Nat} {f g : Fin n → EReal} (h : ∀ i, f i = g i) : minOver f = minOver g := by
  have e : f = g := funext h
  rw [e]

/-- A bound lies below the minimum of a family exactly when it lies below every member. -/
theorem le_minOver_iff {n : Nat} (f : Fin n → EReal) (c : EReal) :
    c ≤ minOver f ↔ ∀ i, c ≤ f i := by
  rw [minOver_eq_inf, Finset.le_inf_iff]
  constructor
  · intro h i
    exact h i (Finset.mem_univ i)
  · intro h i _
    exact h i

/-- A minimum over 4096 indices taken tile by tile: eight tiles of 512, the running minimum started at the first tile's minimum. -/
theorem minOver_tiles (g : Fin 4096 → EReal) (acc : Nat → EReal)
    (h0 : acc 0 = minOver (fun r : Fin 512 => g ⟨r.val, by have := r.isLt; omega⟩))
    (hs : ∀ i (hi : i + 1 < 8), acc (i + 1) = min (acc i) (minOver (fun r : Fin 512 => g ⟨512 * (i + 1) + r.val, by have := r.isLt; omega⟩))) :
    acc 7 = minOver g := by
  -- After block `i` the running minimum is bounded below by exactly the bounds of the first
  -- `512 * (i + 1)` members.
  have key : ∀ i (_ : i < 8) (c : EReal),
      c ≤ acc i ↔ ∀ n : Fin 4096, n.val < 512 * (i + 1) → c ≤ g n := by
    intro i
    induction i with
    | zero =>
      intro _ c
      rw [h0, le_minOver_iff]
      constructor
      · intro h n hn
        exact h ⟨n.val, by omega⟩
      · intro h r
        exact h _ (by have := r.isLt; show r.val < 512 * (0 + 1); omega)
    | succ i ih =>
      intro hi c
      rw [hs i hi, le_min_iff, ih (by omega), le_minOver_iff]
      constructor
      · rintro ⟨h1, h2⟩ n hn
        by_cases hlt : n.val < 512 * (i + 1)
        · exact h1 n hlt
        · -- the index lies in the new block: write it as the block's start plus an offset
          have hr : n.val - 512 * (i + 1) < 512 := by omega
          have e : (⟨512 * (i + 1) + (n.val - 512 * (i + 1)), by have := n.isLt; omega⟩ : Fin 4096) = n := by
            apply Fin.ext
            show 512 * (i + 1) + (n.val - 512 * (i + 1)) = n.val
            omega
          have h3 := h2 ⟨n.val - 512 * (i + 1), hr⟩
          rw [← e]
          exact h3
      · intro h
        refine ⟨fun n hn => h n (by omega), fun r => h _ ?_⟩
        have := r.isLt
        show 512 * (i + 1) + r.val < 512 * (i + 1 + 1)
        omega
  -- After the last block these are all the indices.
  apply eq_of_forall_le_iff
  intro c
  rw [key 7 (by omega), le_minOver_iff]
  constructor
  · intro h n
    exact h n (by have := n.isLt; omega)
  · intro h n _
    exact h n

end Cert.Chamfer

end
-- ==== Proof.KIValue.lean ====
/-
  What the idealized kernel's two result arrays hold after the run, index by index.

  The first result, at (b, n, 0), is the minimum over the predicted points j of batch b of the distance between
  target point n and predicted point j: point t = 8·b + n / 512 writes rows 512·(n / 512) … of it, each the row
  minimum of the point's 512 × 4096 distance slab. The second result, at (b, 0, j), is the minimum over ALL 4096
  target points n of the same distances: the buffer that is written back after a batch's eighth tile holds the
  running elementwise minimum of the eight slabs' column minima, and a minimum over 4096 indices is the minimum of
  the eight tiles' minima.
-/
import proofs.«136748_j43748536877744_1_alg».proof.Proof.KIBody
import proofs.«136748_j43748536877744_1_alg».proof.Proof.Payload
import proofs.«136748_j43748536877744_1_alg».proof.Proof.MinTiles
import Idealize.ShloMosaic.Lib.Pipeline.Value
import Idealize.ShloMosaic.Lib.ValueIdx

set_option maxRecDepth 16384

noncomputable section

namespace Cert.KernelIdeal.RunValue

open Cert.KernelIdeal Cert.KernelIdeal.Gen Cert.KernelIdeal.Body Cert.KernelIdeal.PayloadValue Cert.Chamfer
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The argument arrays and the two nearest-neighbour minima -/

/-- The predicted points and the target points as the region finds them, [4, 4096, 3] each. -/
abbrev parr (c : Dev nD) : Vec Ideal S4x4096x3 .f32 := V m c main_arg0
abbrev tarr (c : Dev nD) : Vec Ideal S4x4096x3 .f32 := V m c main_arg1

/-- The distance (in the kernel's expanded form) between target point `n` and predicted point `j` of batch `b`. -/
def dK (P T : S4x4096x3.Idx → EReal) (b : Fin 4) (n j : Fin 4096) : EReal :=
  distK (fun k => T (ix3 b n k)) (fun k => P (ix3 b j k))

/-- For target point `n`: the distance to the nearest predicted point. -/
def rowMinK (P T : S4x4096x3.Idx → EReal) (b : Fin 4) (n : Fin 4096) : EReal := minOver fun j : Fin 4096 => dK P T b n j
/-- For predicted point `j`: the distance to the nearest target point. -/
def colMinK (P T : S4x4096x3.Idx → EReal) (b : Fin 4) (j : Fin 4096) : EReal := minOver fun n : Fin 4096 => dK P T b n j

/-! ## The grid: point `t` is batch `t / 8`, tile `t % 8` -/

theorem N32 : cfg0.N = 32 := N_0

/-- The batch of a point. -/
def bOf (t : Fin cfg0.N) : Fin 4 := ⟨t.val / 8, by have := t.isLt; have := N32; omega⟩
/-- The target row, among the batch's 4096, of row `r` of the point's tile. -/
def rowOf (t : Fin cfg0.N) (r : Fin 512) : Fin 4096 := ⟨512 * (t.val % 8) + r.val, by have := r.isLt; omega⟩

/-- The printed index maps, decided over the grid. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = t.val % 8 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

/-! ## The input blocks read where the arrays hold them -/

/-- Row `j` of the predicted points' block at point `t` is predicted point `j` of the point's batch. -/
theorem blk0_apply (c : Dev nD) (t : Fin cfg0.N) (j : Fin 4096) (k : Fin 3) :
    iblk m c 0 t (ix3 0 j k) = parr m c (ix3 (bOf t) j k) := by
  obtain ⟨e0, e1, e2, -⟩ := idx_facts t
  show V m c main_arg0 (((cfg0.win 0).blk t).view.emb (ix3 0 j k)) = V m c main_arg0 _
  refine congrArg (V m c main_arg0) (funext fun a => Fin.ext ?_)
  match a with
  | ⟨0, _⟩ => show win0_0.index t (0 : Fin 3) * 1 + 1 * 0 = t.val / 8; omega
  | ⟨1, _⟩ => show win0_0.index t (1 : Fin 3) * 4096 + 1 * j.val = j.val; omega
  | ⟨2, _⟩ => show win0_0.index t (2 : Fin 3) * 3 + 1 * k.val = k.val; omega

/-- Row `r` of the target tile at point `t` is target point `512 · (t % 8) + r` of the point's batch. -/
theorem blk1_apply (c : Dev nD) (t : Fin cfg0.N) (r : Fin 512) (k : Fin 3) :
    iblk m c 1 t (ix3 0 r k) = tarr m c (ix3 (bOf t) (rowOf t r) k) := by
  obtain ⟨-, -, -, e0, e1, e2, -⟩ := idx_facts t
  show V m c main_arg1 (((cfg0.win 1).blk t).view.emb (ix3 0 r k)) = V m c main_arg1 _
  refine congrArg (V m c main_arg1) (funext fun a => Fin.ext ?_)
  match a with
  | ⟨0, _⟩ => show win0_1.index t (0 : Fin 3) * 1 + 1 * 0 = t.val / 8; omega
  | ⟨1, _⟩ => show win0_1.index t (1 : Fin 3) * 512 + 1 * r.val = 512 * (t.val % 8) + r.val; omega
  | ⟨2, _⟩ => show win0_1.index t (2 : Fin 3) * 3 + 1 * k.val = k.val; omega

/-- The point's distance slab at (r, j): the distance between the tile's target row and predicted point `j`. -/
theorem slab_apply (c : Dev nD) (t : Fin cfg0.N) (r : Fin 512) (j : Fin 4096) :
    k0_pay1 (F := Ideal) (iblk m c 0 t) (iblk m c 1 t) (ix2 r j) = dK (parr m c) (tarr m c) (bOf t) (rowOf t r) j := by
  refine (pay1_apply (iblk m c 0 t) (iblk m c 1 t) r j).trans ?_
  unfold dK
  have e1 : (fun k => iblk m c 1 t (ix3 0 r k)) = fun k => tarr m c (ix3 (bOf t) (rowOf t r) k) := funext fun k => blk1_apply m c t r k
  have e0 : (fun k => iblk m c 0 t (ix3 0 j k)) = fun k => parr m c (ix3 (bOf t) j k) := funext fun k => blk0_apply m c t j k
  rw [e1, e0]

/-! ## Window 2: the row minima -/

/-- What point `t` leaves in window 2's buffer at row `r`: the nearest-predicted-point distance of the tile's row. -/
theorem rows_apply (c : Dev nD) (t : Fin cfg0.N) (r : Fin 512) :
    k0_pay2 (F := Ideal) (iblk m c 0 t) (iblk m c 1 t) (ix3 0 r 0) = rowMinK (parr m c) (tarr m c) (bOf t) (rowOf t r) := by
  refine (pay2_apply (iblk m c 0 t) (iblk m c 1 t) r).trans ?_
  unfold rowMinK
  exact minOver_congr fun j => slab_apply m c t r j

/-- The first result array as one function of the argument arrays. -/
def G2 (c : Dev nD) : S4x4096x1.Idx → EReal := fun i =>
  rowMinK (parr m c) (tarr m c) ⟨(i 0).val, (i 0).isLt⟩ ⟨(i 1).val, (i 1).isLt⟩

/-- What point `t` writes back into the first result is block `t` of `G2`. -/
theorem flushed2_eq (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after0_2]
  funext y
  obtain ⟨r, rfl⟩ : ∃ r : Fin 512, y = ix3 (0 : Fin 1) r (0 : Fin 1) :=
    ⟨y 1, (eq_ix3 y).trans (by rw [Fin.eq_zero (y 0), Fin.eq_zero (y 2)]; rfl)⟩
  show k0_pay2 (F := Ideal) (iblk m c 0 t) (iblk m c 1 t) (ix3 0 r 0) = G2 m c (((cfg0.win 2).blk t).view.emb (ix3 0 r 0))
  refine (rows_apply m c t r).trans ?_
  obtain ⟨-, -, -, -, -, -, e0, e1, e2, -⟩ := idx_facts t
  unfold G2
  congr 1 <;> apply Fin.ext
  · show t.val / 8 = win0_2.index t (0 : Fin 3) * 1 + 1 * 0; omega
  · show 512 * (t.val % 8) + r.val = win0_2.index t (1 : Fin 3) * 512 + 1 * r.val; omega

/-- An index of the first result is in point `t`'s block iff each coordinate is in the block's range. -/
theorem mem_blk2 (t : Fin cfg0.N) (i : S4x4096x1.Idx) :
    i ∈ ((cfg0.win 2).blk t).view.set ↔ ∀ a : Fin 3, win0_2.index t a * S1x512x1.size a ≤ (i a).val ∧ (i a).val < win0_2.index t a * S1x512x1.size a + S1x512x1.size a := by
  show i ∈ ((View.whole main_v0_0).slice (win0_2.rect t)).set ↔ _
  rw [View.set_slice_whole, Rect.mem_set_unit]
  exact Iff.rfl

/-- Every index of the first result is in the block of the point of its batch and tile. -/
theorem cover2 (i : S4x4096x1.Idx) : ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 1 := (i 2).isLt
  let t : Fin cfg0.N := ⟨8 * (i 0).val + (i 1).val / 512, by have := N32; omega⟩
  obtain ⟨-, -, -, -, -, -, e0, e1, e2, -⟩ := idx_facts t
  have ht : t.val = 8 * (i 0).val + (i 1).val / 512 := rfl
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1 ≤ (i 2).val ∧ (i 2).val < win0_2.index t (2 : Fin 3) * 1 + 1; omega

/-- THE FIRST RESULT after the run. -/
theorem final2 (c : Dev nD) : (dats m 0 c).arrAt 2 cfg0.N = G2 m c :=
  (dats m 0 c).arrAt_eq_of_cover 2 (G2 m c) (fun t _ => flushed2_eq m c t) (cover2)

/-! ## Window 3: the running column minima -/

/-- `outsAt` does not depend on how its position is written. -/
theorem outsAt_congr (c : Dev nD) {n n' : ℕ} (e : n = n') (h : n < cfg0.N) (h' : n' < cfg0.N) :
    outsAt m c n h = outsAt m c n' h' := by subst e; rfl

/-- At a batch's first tile: the tile's column minima. -/
theorem cols_first (c : Dev nD) (t : Fin cfg0.N) (h0 : t.val % 8 = 0) (j : Fin 4096) :
    outsAt m c t.val t.isLt (ix3 0 0 j) = minOver fun r : Fin 512 => dK (parr m c) (tarr m c) (bOf t) (rowOf t r) j := by
  rw [outsAt_A m c t h0]
  refine (pay4_apply (iblk m c 0 t) (iblk m c 1 t) j).trans ?_
  exact minOver_congr fun r => slab_apply m c t r j

/-- At a later tile: the minimum of what the point before left and the tile's column minima. -/
theorem cols_later (c : Dev nD) (t : Fin cfg0.N) (h0 : ¬t.val % 8 = 0) (j : Fin 4096) :
    outsAt m c t.val t.isLt (ix3 0 0 j)
      = min (outsAt m c (t.val - 1) (Nat.lt_of_le_of_lt (Nat.sub_le _ _) t.isLt) (ix3 0 0 j))
          (minOver fun r : Fin 512 => dK (parr m c) (tarr m c) (bOf t) (rowOf t r) j) := by
  rw [outsAt_B m c t h0]
  refine (pay5_apply (iblk m c 0 t) (iblk m c 1 t) _ j).trans ?_
  exact congrArg (min _) (minOver_congr fun r => slab_apply m c t r j)

/-- After a batch's last tile the buffer holds, at column `j`, the distance from predicted point `j` to the nearest of
    ALL the batch's target points: the eight tiles' column minima folded by `min`. -/
theorem cols_last (c : Dev nD) (t : Fin cfg0.N) (h7 : t.val % 8 = 7) (j : Fin 4096) :
    outsAt m c t.val t.isLt (ix3 0 0 j) = colMinK (parr m c) (tarr m c) (bOf t) j := by
  have hN := N32
  have htN := t.isLt
  let g : Fin 4096 → EReal := fun n => dK (parr m c) (tarr m c) (bOf t) n j
  let acc : ℕ → EReal := fun i =>
    if h : 8 * (t.val / 8) + i < cfg0.N then outsAt m c (8 * (t.val / 8) + i) h (ix3 0 0 j) else ⊤
  have hacc : ∀ i (h : 8 * (t.val / 8) + i < cfg0.N), acc i = outsAt m c (8 * (t.val / 8) + i) h (ix3 0 0 j) :=
    fun i h => dif_pos h
  have key := minOver_tiles g acc
    (by
      have h : 8 * (t.val / 8) + 0 < cfg0.N := by omega
      rw [hacc 0 h]
      refine (cols_first m c ⟨8 * (t.val / 8) + 0, h⟩ (by show (8 * (t.val / 8) + 0) % 8 = 0; omega) j).trans ?_
      refine minOver_congr fun r => ?_
      show dK _ _ _ _ j = dK _ _ _ _ j
      congr 1 <;> apply Fin.ext
      · show (8 * (t.val / 8) + 0) / 8 = t.val / 8; omega
      · show 512 * ((8 * (t.val / 8) + 0) % 8) + r.val = r.val; omega)
    (by
      intro i hi
      have h : 8 * (t.val / 8) + (i + 1) < cfg0.N := by omega
      have h' : 8 * (t.val / 8) + i < cfg0.N := by omega
      rw [hacc (i + 1) h, hacc i h']
      refine (cols_later m c ⟨8 * (t.val / 8) + (i + 1), h⟩ (by show ¬(8 * (t.val / 8) + (i + 1)) % 8 = 0; omega) j).trans ?_
      refine congrArg₂ min ?_ ?_
      · exact congrFun (outsAt_congr m c (by show 8 * (t.val / 8) + (i + 1) - 1 = 8 * (t.val / 8) + i; omega) _ h') _
      · refine minOver_congr fun r => ?_
        show dK _ _ _ _ j = dK _ _ _ _ j
        congr 1 <;> apply Fin.ext
        · show (8 * (t.val / 8) + (i + 1)) / 8 = t.val / 8; omega
        · show 512 * ((8 * (t.val / 8) + (i + 1)) % 8) + r.val = 512 * (i + 1) + r.val; omega)
  have h : 8 * (t.val / 8) + 7 < cfg0.N := by omega
  rw [hacc 7 h] at key
  rw [outsAt_congr m c (by omega : t.val = 8 * (t.val / 8) + 7) t.isLt h]
  exact key

/-- The second result array as one function of the argument arrays. -/
def G3 (c : Dev nD) : S4x1x4096.Idx → EReal := fun i =>
  colMinK (parr m c) (tarr m c) ⟨(i 0).val, (i 0).isLt⟩ ⟨(i 2).val, (i 2).isLt⟩

/-- What a batch's last point writes back into the second result is its block of `G3`. -/
theorem flushed3_eq (c : Dev nD) (t : Fin cfg0.N) (hf : (cfg0.win 3).flush t = true) :
    (dats m 0 c).flushed 3 t = ((cfg0.win 3).blk t).view.read (Elt Ideal) (G3 m c) := by
  have h7 : t.val % 8 = 7 := (flush0_3 t).mp hf
  show (cfg0.win 3).cut (grid0.coords t) ((dats m 0 c).after 3 t) = _
  rw [after0_3]
  funext y
  obtain ⟨j, rfl⟩ : ∃ j : Fin 4096, y = ix3 (0 : Fin 1) (0 : Fin 1) j :=
    ⟨y 2, (eq_ix3 y).trans (by rw [Fin.eq_zero (y 0), Fin.eq_zero (y 1)]; rfl)⟩
  show outsAt m c t.val t.isLt (ix3 0 0 j) = G3 m c (((cfg0.win 3).blk t).view.emb (ix3 0 0 j))
  refine (cols_last m c t h7 j).trans ?_
  obtain ⟨-, -, -, -, -, -, -, -, -, e0, e1, e2⟩ := idx_facts t
  unfold G3
  congr 1 <;> apply Fin.ext
  · show t.val / 8 = win0_3.index t (0 : Fin 3) * 1 + 1 * 0; omega
  · show j.val = win0_3.index t (2 : Fin 3) * 4096 + 1 * j.val; omega

theorem mem_blk3 (t : Fin cfg0.N) (i : S4x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v0_1).slice (win0_3.rect t)).set ↔ _
  rw [View.set_slice_whole, Rect.mem_set_unit]
  exact Iff.rfl

/-- Every index of the second result is in the block its batch's last point writes back. -/
theorem cover3 (i : S4x1x4096.Idx) : ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 4096 := (i 2).isLt
  let t : Fin cfg0.N := ⟨8 * (i 0).val + 7, by have := N32; omega⟩
  obtain ⟨-, -, -, -, -, -, -, -, -, e0, e1, e2⟩ := idx_facts t
  have ht : t.val = 8 * (i 0).val + 7 := rfl
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 4096 ≤ (i 2).val ∧ (i 2).val < win0_3.index t (2 : Fin 3) * 4096 + 4096; omega

/-- THE SECOND RESULT after the run. -/
theorem final3 (c : Dev nD) : (dats m 0 c).arrAt 3 cfg0.N = G3 m c :=
  (dats m 0 c).arrAt_eq_of_cover 3 (G3 m c) (fun t hf => flushed3_eq m c t hf) (cover3)

end Cert.KernelIdeal.RunValue

end
-- ==== Proof.Algebra.lean ====
/-
  The two distances of the specification agree on rows of real numbers.

  For real coordinates the binomial expansion gives
  `∑ t_k² + ∑ p_k² − 2 ∑ t_k p_k = ∑ (t_k − p_k)²`, a sum of squares and hence nonnegative, so the
  clamp at zero is the identity and adding zero changes nothing: the two square roots are taken of the
  same real number. The two constant words are first read as the reals they denote, `2` and `0`.
-/
import proofs.«136748_j43748536877744_1_alg».proof.Proof.Spec
import Mathlib.Data.EReal.Basic
import Mathlib.Data.EReal.Operations
import Mathlib.Algebra.BigOperators.Fin
import Mathlib.Tactic.Ring
import Mathlib.Tactic.NormNum

noncomputable section

namespace Cert.Chamfer

open Idealize.ShloMosaic

/-- The word of `2.0` denotes the real number two. -/
theorem two_eq : two = ((2 : ℝ) : EReal) := by
  simp [two, Ideal.ofBits, Ideal.ieee, -EReal.coe_mul]; norm_num

/-- The word of `0.0` denotes zero. -/
theorem zero_eq : zero = 0 := by
  simp [zero, Ideal.ofBits, Ideal.ieee]

/-- On real rows the expanded, clamped form of the squared distance is the sum of squared differences, so
    the two distances are equal. -/
theorem distK_eq_dist (t p : Fin 3 → EReal) (ht : ∀ k, ∃ r : ℝ, t k = (r : EReal))
    (hp : ∀ k, ∃ r : ℝ, p k = (r : EReal)) : distK t p = dist t p := by
  choose tr htr using ht
  choose pr hpr using hp
  unfold distK dist
  congr 1
  rw [two_eq, zero_eq, zero_add]
  simp only [Fin.sum_univ_three, htr, hpr]
  -- both sides are now finite expressions in coerced reals: move the coercion to the outside
  simp only [← EReal.coe_mul, ← EReal.coe_add, ← EReal.coe_sub]
  -- the binomial expansion, in the reals
  have hexp : tr 0 * tr 0 + tr 1 * tr 1 + tr 2 * tr 2 + (pr 0 * pr 0 + pr 1 * pr 1 + pr 2 * pr 2)
        - 2 * (tr 0 * pr 0 + tr 1 * pr 1 + tr 2 * pr 2)
      = (tr 0 - pr 0) * (tr 0 - pr 0) + (tr 1 - pr 1) * (tr 1 - pr 1) + (tr 2 - pr 2) * (tr 2 - pr 2) := by
    ring
  rw [hexp]
  -- a sum of squares is nonnegative, so the clamp at zero does nothing
  apply max_eq_left
  rw [EReal.coe_nonneg]
  exact add_nonneg (add_nonneg (mul_self_nonneg _) (mul_self_nonneg _)) (mul_self_nonneg _)

end Cert.Chamfer

end
-- ==== Proof.RefValue.lean ====
/-
  Two stages of the reference program read at an index, at the extended reals.

  The reference broadcasts the target points along a new third axis and the predicted points along a new second axis,
  subtracts, squares, sums the three coordinates from zero and takes the square root: at (b, i, j) this is the distance
  between target point i and predicted point j of batch b (`v7_apply`). It then takes the minimum over j (third axis)
  and, separately, over i (second axis), each from +∞: a fold of `min` from `⊤` over the dropped axis's coordinates
  (`v8_apply`, `v9_apply`).
-/
import proofs.«136748_j43748536877744_1_alg».proof.Proof.Spec
import proofs.«136748_j43748536877744_1_alg».proof.Proof.Gen.ReferenceIdeal.Read

noncomputable section

namespace Cert.ReferenceIdeal.RefValue

open Cert.ReferenceIdeal Cert.ReferenceIdeal.Read Cert.Chamfer Idealize.ShloMosaic Idealize.ShloMosaic.ValueIdx

variable (x0 x1 : (⟨S4x4096x3, .f32⟩ : BufTy).Contents (Elt Ideal))

/-- The target operand's index under the two broadcasts and the coordinate sum: (b, i, j) with coordinate k reads
    target point (b, i) at k. -/
private theorem idx_target (b : Fin 4) (i j : Fin 4096) (k : Fin 3) :
    idx_main_v0 (idx_main_v2 (idx_main_v6 (ix3 b i j) k)) = ix3 b i k :=
  funext fun a => Fin.ext (by match a with | ⟨0, _⟩ => rfl | ⟨1, _⟩ => rfl | ⟨2, _⟩ => rfl)

/-- The predicted operand's index under the two broadcasts and the coordinate sum: (b, i, j) with coordinate k reads
    predicted point (b, j) at k. -/
private theorem idx_pred (b : Fin 4) (i j : Fin 4096) (k : Fin 3) :
    idx_main_v1 (idx_main_v3 (idx_main_v6 (ix3 b i j) k)) = ix3 b j k :=
  funext fun a => Fin.ext (by match a with | ⟨0, _⟩ => rfl | ⟨1, _⟩ => rfl | ⟨2, _⟩ => rfl)

/-- The pairwise stage at (b, i, j) is the distance between target point i and predicted point j of batch b. -/
theorem v7_apply (b : Fin 4) (i j : Fin 4096) :
    val_main_v7 (F := Ideal) x0 x1 (ix3 b i j) = dist (fun k => x1 (ix3 b i k)) (fun k => x0 (ix3 b j k)) := by
  rw [val_main_v7_apply, val_main_v6_apply]
  simp only [val_main_v5_apply, val_main_v4_apply, val_main_v2_apply, val_main_v3_apply, val_main_v0_apply,
    val_main_v1_apply, val_main_cst_apply, idx_target, idx_pred, Ideal.hostUnary_sqrt_def, Ideal.subf_def,
    Ideal.mulf_def, Ideal.ofBits_def]
  rfl

/-- The initial value of both minimum-reductions, the f32 word of +∞, is the top element. -/
private theorem init_top : Ideal.ofBits .f32 0x7F800000#32 = (⊤ : EReal) := by
  simp [Ideal.ofBits, Ideal.ieee]

/-- The reduced index (b, i) with coordinate j put back on the third axis is (b, i, j). -/
private theorem lift_d2 (h : S4x4096x4096.Reduces [2] S4x4096) (b : Fin 4) (i j : Fin 4096) :
    h.lift (ix2 b i) j = ix3 b i j :=
  funext fun a => Fin.ext (by match a with | ⟨0, _⟩ => rfl | ⟨1, _⟩ => rfl | ⟨2, _⟩ => rfl)

/-- The reduced index (b, j) with coordinate i put back on the second axis is (b, i, j). -/
private theorem lift_d1 (h : S4x4096x4096.Reduces [1] S4x4096) (b : Fin 4) (i j : Fin 4096) :
    h.lift (ix2 b j) i = ix3 b i j :=
  funext fun a => Fin.ext (by match a with | ⟨0, _⟩ => rfl | ⟨1, _⟩ => rfl | ⟨2, _⟩ => rfl)

/-- The minimum over the predicted points: at (b, i) the least distance from target point i to a predicted point. -/
theorem v8_apply (b : Fin 4) (i : Fin 4096) :
    val_main_v8 (F := Ideal) x0 x1 (ix2 b i)
      = minOver (fun j : Fin 4096 => dist (fun k => x1 (ix3 b i k)) (fun k => x0 (ix3 b j k))) := by
  have h : S4x4096x4096.Reduces [2] S4x4096 := by decide
  unfold val_main_v8
  rw [Host.reduce_eq_fold_single FloatOps.minimumf _ _ Gen.reducesTo_S4x4096x4096_S4x4096_d2 h Gen.h_S_]
  have hf : (val_main_v7 (F := Ideal) x0 x1 ∘ h.lift (ix2 b i))
      = fun j : Fin 4096 => dist (fun k => x1 (ix3 b i k)) (fun k => x0 (ix3 b j k)) :=
    funext fun j => by
      show val_main_v7 (F := Ideal) x0 x1 (h.lift (ix2 b i) j) = _
      rw [lift_d2 h b i j]
      exact v7_apply x0 x1 b i j
  rw [hf, val_main_cst_0_apply, Ideal.ofBits_def, init_top]
  rfl

/-- The minimum over the target points: at (b, j) the least distance from predicted point j to a target point. -/
theorem v9_apply (b : Fin 4) (j : Fin 4096) :
    val_main_v9 (F := Ideal) x0 x1 (ix2 b j)
      = minOver (fun i : Fin 4096 => dist (fun k => x1 (ix3 b i k)) (fun k => x0 (ix3 b j k))) := by
  have h : S4x4096x4096.Reduces [1] S4x4096 := by decide
  unfold val_main_v9
  rw [Host.reduce_eq_fold_single FloatOps.minimumf _ _ Gen.reducesTo_S4x4096x4096_S4x4096_d1 h Gen.h_S_]
  have hf : (val_main_v7 (F := Ideal) x0 x1 ∘ h.lift (ix2 b j))
      = fun i : Fin 4096 => dist (fun k => x1 (ix3 b i k)) (fun k => x0 (ix3 b j k)) :=
    funext fun i => by
      show val_main_v7 (F := Ideal) x0 x1 (h.lift (ix2 b j) i) = _
      rw [lift_d1 h b i j]
      exact v7_apply x0 x1 b i j
  rw [hf, val_main_cst_1_apply, Ideal.ofBits_def, init_top]
  rfl

end Cert.ReferenceIdeal.RefValue

end
-- ==== Proof.KIResult.lean ====
/-
  The idealized kernel's result, and why it is the reference's.

  After the region the program reshapes its two result arrays to [4, 4096], sums each, divides each sum by 16384 and
  adds the two quotients; the reference does the same with its two arrays of nearest-neighbour distances. So the two
  results are one function (`meanSum`) of two pairs of [4, 4096] arrays, and it is enough that the arrays agree:
  * the first reshaped result at (b, n) is the kernel's first result at (b, n, 0): the minimum over the predicted
    points j of the distance between target n and predicted j, which is the reference's minimum along its last axis;
  * the second at (b, j) is the second result at (b, 0, j): the minimum over the target points, the reference's
    minimum along its middle axis;
  * the distances themselves agree because the inputs are finite: on rows of real numbers the expanded, clamped form
    the kernel computes is the sum of squared differences the reference computes.
-/
import proofs.«136748_j43748536877744_1_alg».proof.Proof.KIValue
import proofs.«136748_j43748536877744_1_alg».proof.Proof.Algebra
import proofs.«136748_j43748536877744_1_alg».proof.Proof.RefValue
import Idealize.ShloMosaic.Lib.StableHlo.Run
import Idealize.ShloMosaic.Lib.Pipeline.FrameSuffix

set_option maxRecDepth 16384

noncomputable section

namespace Cert.KernelIdeal.Result

open Cert.KernelIdeal Cert.KernelIdeal.Gen Cert.KernelIdeal.Body Cert.KernelIdeal.RunValue Cert.Chamfer
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The last lines of both programs as one function -/

/-- The mean of each of two [4, 4096] arrays (its sum from zero, divided by 16384), added. -/
def meanSum (a b : FVec Ideal S4x4096 .f32) : FVec Ideal S_ .f32 :=
  addf (F := Ideal)
    (Host.divf (F := Ideal) (Host.reduceAdd (F := Ideal) a (constant (F := Ideal) S_ .f32 0x00000000#32) reducesTo_S4x4096_S_d0_1 h_S_)
      (constant (F := Ideal) S_ .f32 0x46800000#32))
    (Host.divf (F := Ideal) (Host.reduceAdd (F := Ideal) b (constant (F := Ideal) S_ .f32 0x00000000#32) reducesTo_S4x4096_S_d0_1 h_S_)
      (constant (F := Ideal) S_ .f32 0x46800000#32))

/-! ## The two reshapes read at an index -/

/-- [4, 4096, 1] read as [4, 4096]: the entry at (b, n) is the entry at (b, n, 0). -/
theorem cast2_apply (g : S4x4096x1.Idx → EReal) (b : Fin 4) (n : Fin 4096) :
    shapeCast S4x4096 g shapeCasts_S4x4096x1_S4x4096 (ix2 b n) = g (ix3 b n 0) :=
  shapeCast_apply g shapeCasts_S4x4096x1_S4x4096 (ix2 b n) (ix3 b n 0) (by
    rw [Shape.rowMajor_val_three, Shape.rowMajor_val_two]
    show (b.val * 4096 + n.val) * 1 + 0 = b.val * 4096 + n.val
    omega)

/-- [4, 1, 4096] read as [4, 4096]: the entry at (b, j) is the entry at (b, 0, j). -/
theorem cast3_apply (g : S4x1x4096.Idx → EReal) (b : Fin 4) (j : Fin 4096) :
    shapeCast S4x4096 g shapeCasts_S4x1x4096_S4x4096 (ix2 b j) = g (ix3 b 0 j) :=
  shapeCast_apply g shapeCasts_S4x1x4096_S4x4096 (ix2 b j) (ix3 b 0 j) (by
    rw [Shape.rowMajor_val_three, Shape.rowMajor_val_two]
    show (b.val * 1 + 0) * 4096 + j.val = b.val * 4096 + j.val
    omega)

/-! ## The kernel's result -/

/-- The kernel's result on core `c`: `meanSum` of its two result arrays, reshaped. -/
def res (c : Dev nD) : FVec Ideal S_ .f32 :=
  meanSum (shapeCast S4x4096 (G2 m c) shapeCasts_S4x4096x1_S4x4096) (shapeCast S4x4096 (G3 m c) shapeCasts_S4x1x4096_S4x4096)

/-- The result buffer is none of the pipeline's arrays and is not scoped. -/
theorem mem7 : main_v7 ∈ Pipeline.restRefs sig (cfgs 0).spec :=
  Pipeline.mem_restRefs_of main_v7 rfl (by decide)

/-- What the host lines after the region leave in the result buffer. -/
theorem tail_eq (c : Dev nD) : Pipeline.afterTail₀ cfgs (dats m) 0 (V0 m) [hostOps1] c main_v7 = res m c := by
  unfold Pipeline.afterTail₀
  show StableHlo.after hostOps1 _ (Proc.devRef .tc main_v7) = _
  after_results
  have e2 : Pipeline.withArrays (cfgs 0).spec c (V0 m c) (fun w => (dats m 0 c).arrAt w (cfgs 0).N) (Proc.devRef .tc main_v0_0) = G2 m c :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v0_1) = G3 m c :=
    (Pipeline.withArrays_arr spec0 launch0.win.arr_inj c _ _ 3).trans (final3 m c)
  rw [e2, e3]
  rfl

/-- THE VALUE RUN: every execution ends with the result buffer at `res` and the two arguments as they were. -/
theorem run_value : θ_run defs (onTc (τ := τ) (main (F := Ideal))) ⟨m, fun _ => 0, ρ⟩ (fun r => ∀ c : Dev nD,
      r.2.mem ((c.tc : Thread nD τ).loc main_v7) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).2 main_v7 mem7).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main (F := Ideal) m ρ)

/-! ## The bridge to the reference -/

section Bridge

variable (c : Dev nD)
  (hP : ∀ i, ∃ r : ℝ, parr m c i = (r : EReal)) (hT : ∀ i, ∃ r : ℝ, tarr m c i = (r : EReal))

include hP hT

/-- The first reshaped result is the reference's minimum over the predicted points. -/
theorem rows_eq :
    shapeCast S4x4096 (G2 m c) shapeCasts_S4x4096x1_S4x4096
      = Cert.ReferenceIdeal.Read.val_main_v8 (F := Ideal) (parr m c) (tarr m c) := by
  funext i
  obtain ⟨b, n, rfl⟩ : ∃ (b : Fin 4) (n : Fin 4096), i = ix2 b n := ⟨i 0, i 1, eq_ix2 i⟩
  rw [cast2_apply]
  refine Eq.trans ?_ (Cert.ReferenceIdeal.RefValue.v8_apply (parr m c) (tarr m c) b n).symm
  show rowMinK (parr m c) (tarr m c) b n = _
  unfold rowMinK dK
  exact minOver_congr fun j => distK_eq_dist _ _ (fun k => hT _) (fun k => hP _)

/-- The second reshaped result is the reference's minimum over the target points. -/
theorem cols_eq :
    shapeCast S4x4096 (G3 m c) shapeCasts_S4x1x4096_S4x4096
      = Cert.ReferenceIdeal.Read.val_main_v9 (F := Ideal) (parr m c) (tarr m c) := by
  funext i
  obtain ⟨b, j, rfl⟩ : ∃ (b : Fin 4) (j : Fin 4096), i = ix2 b j := ⟨i 0, i 1, eq_ix2 i⟩
  rw [cast3_apply]
  refine Eq.trans ?_ (Cert.ReferenceIdeal.RefValue.v9_apply (parr m c) (tarr m c) b j).symm
  show colMinK (parr m c) (tarr m c) b j = _
  unfold colMinK dK
  exact minOver_congr fun n => distK_eq_dist _ _ (fun k => hT _) (fun k => hP _)

/-- The kernel's result is the reference's last stage of the same argument arrays. -/
theorem res_eq_ref : res m c = Cert.ReferenceIdeal.Read.val_main_v14 (F := Ideal) (parr m c) (tarr m c) := by
  unfold res
  rw [rows_eq m c hP hT, cols_eq m c hP hT]
  rfl

end Bridge

end Cert.KernelIdeal.Result

end
-- ==== Proof.Finite.lean ====
/-
  From the printed precondition (every float entry of the two argument arrays has absolute value
  below `+∞`) to the plain fact that every entry of either array is a real number.

  The precondition is the conjunction of two `all`-reductions by `and`, one per array, of the entrywise
  comparison `|x| < +∞`. A conjunction of one-bit words that is 1 has both parts 1; an `and`-reduction
  over all axes that is 1 had a 1 at every entry; and an extended real whose absolute value
  `max x (-x)` lies below `⊤` is neither `⊥` nor `⊤`, hence the coercion of a real.
-/
import proofs.«136748_j43748536877744_1_alg».proof.Defs
import proofs.«136748_j43748536877744_1_alg».proof.Proof.Gen.Pre_finite_inputs
import Idealize.ShloMosaic.Lib.ReduceAll
import Idealize.ShloMosaic.Lib.ValueIdx

noncomputable section

namespace Cert.KernelIdeal.Finite

open Idealize.ShloMosaic Idealize.SL.Sem
open Cert.Pre_finite_inputs (S4x4096x3 S_)

/-- The shape of rank zero has exactly one index. -/
instance : Subsingleton S_.Idx := ⟨fun a b => funext fun d => d.elim0⟩

/-- An extended real whose absolute value is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The entrywise test of the precondition, `|x| < +∞` with `+∞` the f32 word `0x7F800000`, read back:
    an entry that passes it is a real number. -/
theorem entry_real (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  apply real_of_abs_lt_top
  have htop : Ideal.ofBits .f32 0x7F800000#32 = ⊤ := by simp [Ideal.ofBits, Ideal.ieee]
  have h' : BitVec.ofBool (decide (max x (-x) < Ideal.ofBits .f32 0x7F800000#32)) = 1#1 := h
  rw [htop] at h'
  by_contra hn
  rw [decide_eq_false hn] at h'
  exact absurd h' (by decide)

/-- The printed predicate, all ones on two arrays, says every entry of both is a real number. -/
theorem real_of_fn [hP : Cert.Pre_finite_inputs.Facts]
    (a b : (⟨S4x4096x3, .f32⟩ : BufTy).Contents (Elt Ideal))
    (h : Cert.Pre_finite_inputs.fn (F := Ideal) a b = (fun _ => 1#1)) :
    (∀ i, ∃ r : ℝ, a i = (r : EReal)) ∧ (∀ i, ∃ r : ℝ, b i = (r : EReal)) := by
  have h0 := congrFun h ValueIdx.ix0
  dsimp only [Cert.Pre_finite_inputs.fn] at h0
  obtain ⟨ha, hb⟩ := IntOp.andi_eq_one.1 h0
  exact ⟨fun i => entry_real (a i) (Host.reduce_andi_all _ _ _ _ _ ha i),
    fun i => entry_real (b i) (Host.reduce_andi_all _ _ _ _ _ hb i)⟩

/-- Under the precondition of the idealized kernel, on every device, every entry of the two argument
    arrays is a real number. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) :=
  real_of_fn _ _ (h c)

end Cert.KernelIdeal.Finite

end
-- ==== Proof.lean ====
/- The proof of `Cert.Claim`: a chamfer-distance kernel against its jnp reference, over the extended reals.

   The kernel walks a 4 × 8 grid (batch, target tile). At each point it builds the 512 × 4096 slab of distances between
   the tile's target points and all the batch's predicted points through the expansion |t|² + |p|² − 2⟨t, p⟩ (the inner
   products by one matrix product), clamps at zero, takes square roots, stores the slab's row minima, and folds the
   slab's column minima into a buffer it carries across the batch's eight tiles. The host then averages the two
   arrays of minima and adds the averages. The reference forms every difference t − p, sums the squares, takes the root,
   and minimises along each axis before the same averaging.

   * The three frames. The two kernel programs (as printed, at the word level, and idealized, at the extended reals)
     have one text, so one frame proof, written for any float instance in Proof/KIBody.lean, serves both
     (Proof/KBody.lean is that text with the program's name substituted); the reference's frame is its run.
   * `preserves`: the idealization rewrote nothing.
   * `algebraic`: the kernel's result (Proof/KIValue.lean, Proof/KIResult.lean) is the mean-sum of two arrays that,
     on finite inputs (Proof/Finite.lean), are entry by entry the reference's two minimum stages (Proof/RefValue.lean):
     the expansion is the sum of squared differences on real rows (Proof/Algebra.lean), and a minimum over 4096
     indices is the minimum of eight tiles' minima (Proof/MinTiles.lean). -/
import proofs.«136748_j43748536877744_1_alg».proof.Defs
import proofs.«136748_j43748536877744_1_alg».proof.Proof.Gen.Kernel
import proofs.«136748_j43748536877744_1_alg».proof.Proof.Gen.KernelIdeal
import proofs.«136748_j43748536877744_1_alg».proof.Proof.Gen.ReferenceIdeal
import proofs.«136748_j43748536877744_1_alg».proof.Proof.Gen.Pre_finite_inputs
import proofs.«136748_j43748536877744_1_alg».proof.Proof.Gen.ReferenceIdeal.Run
import proofs.«136748_j43748536877744_1_alg».proof.Proof.Gen.ReferenceIdeal.Read
import proofs.«136748_j43748536877744_1_alg».proof.Proof.KBody
import proofs.«136748_j43748536877744_1_alg».proof.Proof.KIBody
import proofs.«136748_j43748536877744_1_alg».proof.Proof.KIResult
import proofs.«136748_j43748536877744_1_alg».proof.Proof.Finite
import Idealize.ShloMosaic.Adequacy
import Idealize.ShloMosaic.Init

noncomputable section

namespace Cert.Proof

open Idealize.ShloMosaic Idealize.SL.Sem

/-- The program as printed runs to the end, faults nowhere and keeps its arguments. -/
theorem frame_k : Cert.frame_Kernel := fun m ρ _ => Cert.Kernel.Body.frame (F := Bits) m ρ

/-- So does its idealization. -/
theorem frame_ki : Cert.frame_KernelIdeal := fun m ρ _ => Cert.KernelIdeal.Body.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two arguments, both programs end with the same result: the kernel's mean-sum of
    its two arrays of minima is the reference's last stage of the same finite arguments. -/
theorem algebraic : Cert.algebraic_KernelIdeal_ReferenceIdeal := by
  intro m ρ m' ρ' hpre hagree
  refine ⟨fun c => Cert.KernelIdeal.Result.res m c, Cert.KernelIdeal.Result.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2]
  obtain ⟨hP, hT⟩ := Cert.KernelIdeal.Finite.real_of_pre m hpre c
  exact (Cert.KernelIdeal.Result.res_eq_ref m c hP hT).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
